-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x2048 : Shape := ⟨2, ![1024, 2048]⟩
abbrev S64x2048x1408 : Shape := ⟨3, ![64, 2048, 1408]⟩
abbrev S64x1408x2048 : Shape := ⟨3, ![64, 1408, 2048]⟩
abbrev S64 : Shape := ⟨1, ![64]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S64x2048x1408 : S_.BroadcastsInDim S64x2048x1408 (![] : Fin 0 → Fin S64x2048x1408.rank)
  reducesTo_S64x2048x1408_S_d0_1_2 : S64x2048x1408.ReducesTo [0, 1, 2] S_
  bcast_S_S64x1408x2048 : S_.BroadcastsInDim S64x1408x2048 (![] : Fin 0 → Fin S64x1408x2048.rank)
  reducesTo_S64x1408x2048_S_d0_1_2 : S64x1408x2048.ReducesTo [0, 1, 2] S_

variable [Facts]

def fn_part1 {F : FTy → Type} [FloatOps F] (main_v13 : IVec S_ 1) (main_v16 : IVec S64x1408x2048 1) : IVec S_ 1 :=
  let main_c_5 : IVec S_ 1 := constantI S_ 1 1#1
  let main_v17 : IVec S_ 1 := (fun x v => Host.reduce IntOp.andi x v reducesTo_S64x1408x2048_S_d0_1_2 h_S_) main_v16 main_c_5
  let main_v18 : IVec S_ 1 := andi main_v13 main_v17
  main_v18

def fn {F : FTy → Type} [FloatOps F] (main_arg0 : FVec F S1024x2048 .f32) (main_arg1 : FVec F S64x2048x1408 .f32) (main_arg2 : FVec F S64x2048x1408 .f32) (main_arg3 : FVec F S64x1408x2048 .f32) (main_arg4 : IVec S64 32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S64x2048x1408 .f32 := Host.absf main_arg1
  let main_cst_0 : FVec F S_ .f32 := constant S_ .f32 0x7F800000#32
  let main_v5 : FVec F S64x2048x1408 .f32 := broadcastInDim S64x2048x1408 ![] bcast_S_S64x2048x1408 main_cst_0
  let main_v6 : IVec S64x2048x1408 1 := cmpf .olt main_v4 main_v5
  let main_c_1 : IVec S_ 1 := constantI S_ 1 1#1
  let main_v7 : IVec S_ 1 := (fun x v => Host.reduce IntOp.andi x v reducesTo_S64x2048x1408_S_d0_1_2 h_S_) main_v6 main_c_1
  let main_v8 : IVec S_ 1 := andi main_v3 main_v7
  let main_v9 : FVec F S64x2048x1408 .f32 := Host.absf main_arg2
  let main_cst_2 : FVec F S_ .f32 := constant S_ .f32 0x7F800000#32
  let main_v10 : FVec F S64x2048x1408 .f32 := broadcastInDim S64x2048x1408 ![] bcast_S_S64x2048x1408 main_cst_2
  let main_v11 : IVec S64x2048x1408 1 := cmpf .olt main_v9 main_v10
  let main_c_3 : IVec S_ 1 := constantI S_ 1 1#1
  let main_v12 : IVec S_ 1 := (fun x v => Host.reduce IntOp.andi x v reducesTo_S64x2048x1408_S_d0_1_2 h_S_) main_v11 main_c_3
  let main_v13 : IVec S_ 1 := andi main_v8 main_v12
  let main_v14 : FVec F S64x1408x2048 .f32 := Host.absf main_arg3
  let main_cst_4 : FVec F S_ .f32 := constant S_ .f32 0x7F800000#32
  let main_v15 : FVec F S64x1408x2048 .f32 := broadcastInDim S64x1408x2048 ![] bcast_S_S64x1408x2048 main_cst_4
  let main_v16 : IVec S64x1408x2048 1 := cmpf .olt main_v14 main_v15
  fn_part1 (F := F) main_v13 main_v16
-- ==== Kernel.lean ====
abbrev S1024x2048 : Shape := ⟨2, ![1024, 2048]⟩
abbrev S64x2048x1408 : Shape := ⟨3, ![64, 2048, 1408]⟩
abbrev S64x1408x2048 : Shape := ⟨3, ![64, 1408, 2048]⟩
abbrev S64 : Shape := ⟨1, ![64]⟩
abbrev S64x16x2048 : Shape := ⟨3, ![64, 16, 2048]⟩
abbrev S1x16x256 : Shape := ⟨3, ![1, 16, 256]⟩
abbrev S1x256x1408 : Shape := ⟨3, ![1, 256, 1408]⟩
abbrev S1x1408x2048 : Shape := ⟨3, ![1, 1408, 2048]⟩
abbrev S1x16x2048 : Shape := ⟨3, ![1, 16, 2048]⟩
abbrev S16x1408 : Shape := ⟨2, ![16, 1408]⟩
abbrev S16x256 : Shape := ⟨2, ![16, 256]⟩
abbrev S256x1408 : Shape := ⟨2, ![256, 1408]⟩
abbrev S1408x2048 : Shape := ⟨2, ![1408, 2048]⟩
abbrev S16x2048 : Shape := ⟨2, ![16, 2048]⟩

abbrev nBuf : Space → Nat
  | .hbm => 8
  | .vmem => 12
  | .smem => 0
  | _ => 0

abbrev bufTy : (tb : Table) → Fin (tcTables nBuf tb) → BufTy
  | .hbm, ⟨0, _⟩ => ⟨S1024x2048, .f32⟩
  | .hbm, ⟨1, _⟩ => ⟨S64x2048x1408, .f32⟩
  | .hbm, ⟨2, _⟩ => ⟨S64x2048x1408, .f32⟩
  | .hbm, ⟨3, _⟩ => ⟨S64x1408x2048, .f32⟩
  | .hbm, ⟨4, _⟩ => ⟨S64, .i32⟩
  | .hbm, ⟨5, _⟩ => ⟨S64x16x2048, .f32⟩
  | .hbm, ⟨6, _⟩ => ⟨S64x16x2048, .f32⟩
  | .hbm, ⟨7, _⟩ => ⟨S1024x2048, .f32⟩
  | .local _ .vmem, ⟨0, _⟩ => ⟨S1x16x256, .f32⟩
  | .local _ .vmem, ⟨1, _⟩ => ⟨S1x16x256, .f32⟩
  | .local _ .vmem, ⟨2, _⟩ => ⟨S1x256x1408, .f32⟩
  | .local _ .vmem, ⟨3, _⟩ => ⟨S1x256x1408, .f32⟩
  | .local _ .vmem, ⟨4, _⟩ => ⟨S1x256x1408, .f32⟩
  | .local _ .vmem, ⟨5, _⟩ => ⟨S1x256x1408, .f32⟩
  | .local _ .vmem, ⟨6, _⟩ => ⟨S1x1408x2048, .f32⟩
  | .local _ .vmem, ⟨7, _⟩ => ⟨S1x1408x2048, .f32⟩
  | .local _ .vmem, ⟨8, _⟩ => ⟨S1x16x2048, .f32⟩
  | .local _ .vmem, ⟨9, _⟩ => ⟨S1x16x2048, .f32⟩
  | .local _ .vmem, ⟨10, _⟩ => ⟨S16x1408, .f32⟩
  | .local _ .vmem, ⟨11, _⟩ => ⟨S16x1408, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![64, 8], ![false, false]⟩

def k0_cond2 (i : grid0.Coords) : BitVec 1 :=
  let arg1 : BitVec 32 := BitVec.ofNat 32 (i 1).val
  let c7_i32 : BitVec 32 := 7#32
  let v24 : BitVec 1 := Scalar.cmpi .eq arg1 c7_i32
  let v25 : BitVec 32 := Scalar.extui v24
  let c0_i32_18 : BitVec 32 := 0#32
  let v26 : BitVec 1 := Scalar.cmpi .ne v25 c0_i32_18
  v26

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1408x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x16x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S1024x2048_S64x16x2048 : S1024x2048.ShapeCasts S64x16x2048
  inb_S16x1408_S16x1408_0_0 : ∀ a, (![0, 0] : Fin 2 → Nat) a + S16x1408.size a ≤ S16x1408.size a
  h_S16x1408 : 0 < S16x1408.numel
  shapeCasts_S16x1408_S16x1408 : S16x1408.ShapeCasts S16x1408
  inb_S1x16x256_S1x16x256_0_0_0 : ∀ a, (![0, 0, 0] : Fin 3 → Nat) a + S1x16x256.size a ≤ S1x16x256.size a
  h_S1x16x256 : 0 < S1x16x256.numel
  shapeCasts_S1x16x256_S16x256 : S1x16x256.ShapeCasts S16x256
  bitsLt_bf16_f32 : FTy.bits .bf16 < FTy.bits .f32
  inb_S1x256x1408_S1x256x1408_0_0_0 : ∀ a, (![0, 0, 0] : Fin 3 → Nat) a + S1x256x1408.size a ≤ S1x256x1408.size a
  h_S1x256x1408 : 0 < S1x256x1408.numel
  shapeCasts_S1x256x1408_S256x1408 : S1x256x1408.ShapeCasts S256x1408
  inb_S1x1408x2048_S1x1408x2048_0_0_0 : ∀ a, (![0, 0, 0] : Fin 3 → Nat) a + S1x1408x2048.size a ≤ S1x1408x2048.size a
  h_S1x1408x2048 : 0 < S1x1408x2048.numel
  shapeCasts_S1x1408x2048_S1408x2048 : S1x1408x2048.ShapeCasts S1408x2048
  inb_S1x16x2048_S1x16x2048_0_0_0 : ∀ a, (![0, 0, 0] : Fin 3 → Nat) a + S1x16x2048.size a ≤ S1x16x2048.size a
  h_S1x16x2048 : 0 < S1x16x2048.numel
  shapeCasts_S1x16x2048_S16x2048 : S1x16x2048.ShapeCasts S16x2048
  shapeCasts_S16x2048_S1x16x2048 : S16x2048.ShapeCasts S1x16x2048
  shapeCasts_S64x16x2048_S1024x2048 : S64x16x2048.ShapeCasts S1024x2048
  dot_S16x256_S256x1408_S16x1408_1_0_0_1_n_n_wf : DotDims.WF S16x256 S256x1408 S16x1408 [1] [0] [0] [1] [] []
  dot_S16x1408_S1408x2048_S16x2048_1_0_0_1_n_n_wf : DotDims.WF S16x1408 S1408x2048 S16x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x256.size a ≤ S64x16x2048.size a
  hwx0_0 : ∀ i : grid0.Coords, EltTy.bits .f32 = 32 ∨ (Rect.block (s := S64x16x2048) S1x16x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1408.size a ≤ S64x2048x1408.size a
  hwx0_1 : ∀ i : grid0.Coords, EltTy.bits .f32 = 32 ∨ (Rect.block (s := S64x2048x1408) S1x256x1408.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1408.size a ≤ S64x2048x1408.size a
  hwx0_2 : ∀ i : grid0.Coords, EltTy.bits .f32 = 32 ∨ (Rect.block (s := S64x2048x1408) S1x256x1408.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1408x2048.size a ≤ S64x1408x2048.size a
  hwx0_3 : ∀ i : grid0.Coords, EltTy.bits .f32 = 32 ∨ (Rect.block (s := S64x1408x2048) S1x1408x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x2048.size a ≤ S64x16x2048.size a
  hwx0_4 : ∀ i : grid0.Coords, EltTy.bits .f32 = 32 ∨ (Rect.block (s := S64x16x2048) S1x16x2048.size (cc0_transform_4 i) (hinb0_4 i)).WholeWords (EltTy.packing .f32)

variable [Facts₀]

def dot_S16x256_S256x1408_S16x1408_1_0_0_1_n_n : DotDims S16x256 S256x1408 S16x1408 where
  lhsContracting := [1]
  rhsContracting := [0]
  lhsNonContracting := [0]
  rhsNonContracting := [1]
  lhsBatch := []
  rhsBatch := []
  wf := dot_S16x256_S256x1408_S16x1408_1_0_0_1_n_n_wf
def dot_S16x1408_S1408x2048_S16x2048_1_0_0_1_n_n : DotDims S16x1408 S1408x2048 S16x2048 where
  lhsContracting := [1]
  rhsContracting := [0]
  lhsNonContracting := [0]
  rhsNonContracting := [1]
  lhsBatch := []
  rhsBatch := []
  wf := dot_S16x1408_S1408x2048_S16x2048_1_0_0_1_n_n_wf

abbrev win0_0 : Pipeline.Window sig grid0 :=
  Pipeline.Window.ofSpec (Memref.whole main_v0) S1x16x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x1408.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x256x1408.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1408x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x16x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S1024x2048 : Shape := ⟨2, ![1024, 2048]⟩
abbrev S64x2048x1408 : Shape := ⟨3, ![64, 2048, 1408]⟩
abbrev S64x1408x2048 : Shape := ⟨3, ![64, 1408, 2048]⟩
abbrev S64 : Shape := ⟨1, ![64]⟩
abbrev S64x16x2048 : Shape := ⟨3, ![64, 16, 2048]⟩
abbrev S64x16x1408 : Shape := ⟨3, ![64, 16, 1408]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S64x2048x1408, .f32⟩
  | .hbm, ⟨2, _⟩ => ⟨S64x2048x1408, .f32⟩
  | .hbm, ⟨3, _⟩ => ⟨S64x1408x2048, .f32⟩
  | .hbm, ⟨4, _⟩ => ⟨S64, .i32⟩
  | .hbm, ⟨5, _⟩ => ⟨S64x16x2048, .f32⟩
  | .hbm, ⟨6, _⟩ => ⟨S64x16x1408, .f32⟩
  | .hbm, ⟨7, _⟩ => ⟨S64x16x1408, .f32⟩
  | .hbm, ⟨8, _⟩ => ⟨S64x16x1408, .f32⟩
  | .hbm, ⟨9, _⟩ => ⟨S64x16x1408, .f32⟩
  | .hbm, ⟨10, _⟩ => ⟨S_, .f32⟩
  | .hbm, ⟨11, _⟩ => ⟨S64x16x1408, .f32⟩
  | .hbm, ⟨12, _⟩ => ⟨S64x16x1408, .f32⟩
  | .hbm, ⟨13, _⟩ => ⟨S_, .f32⟩
  | .hbm, ⟨14, _⟩ => ⟨S64x16x1408, .f32⟩
  | .hbm, ⟨15, _⟩ => ⟨S64x16x1408, .f32⟩
  | .hbm, ⟨16, _⟩ => ⟨S64x16x1408, .f32⟩
  | .hbm, ⟨17, _⟩ => ⟨S64x16x1408, .f32⟩
  | .hbm, ⟨18, _⟩ => ⟨S64x16x2048, .f32⟩
  | .hbm, ⟨19, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩

abbrev nD : Nat := 1
abbrev τ : Topo := Topo.v7x

variable {F : FTy → Type} [FloatOps F]

class Facts₀ : Prop where
  shapeCasts_S1024x2048_S64x16x2048 : S1024x2048.ShapeCasts S64x16x2048
  bcast_S_S64x16x1408 : S_.BroadcastsInDim S64x16x1408 (![] : Fin 0 → Fin S64x16x1408.rank)
  shapeCasts_S64x16x2048_S1024x2048 : S64x16x2048.ShapeCasts S1024x2048
  dot_S64x16x2048_S64x2048x1408_S64x16x1408_2_1_1_2_0_0_wf : DotDims.WF S64x16x2048 S64x2048x1408 S64x16x1408 [2] [1] [1] [2] [0] [0]
  dot_S64x16x1408_S64x1408x2048_S64x16x2048_2_1_1_2_0_0_wf : DotDims.WF S64x16x1408 S64x1408x2048 S64x16x2048 [2] [1] [1] [2] [0] [0]

variable [Facts₀]

def dot_S64x16x2048_S64x2048x1408_S64x16x1408_2_1_1_2_0_0 : DotDims S64x16x2048 S64x2048x1408 S64x16x1408 where
  lhsContracting := [2]
  rhsContracting := [1]
  lhsNonContracting := [1]
  rhsNonContracting := [2]
  lhsBatch := [0]
  rhsBatch := [0]
  wf := dot_S64x16x2048_S64x2048x1408_S64x16x1408_2_1_1_2_0_0_wf
def dot_S64x16x1408_S64x1408x2048_S64x16x2048_2_1_1_2_0_0 : DotDims S64x16x1408 S64x1408x2048 S64x16x2048 where
  lhsContracting := [2]
  rhsContracting := [1]
  lhsNonContracting := [1]
  rhsNonContracting := [2]
  lhsBatch := [0]
  rhsBatch := [0]
  wf := dot_S64x16x1408_S64x1408x2048_S64x16x2048_2_1_1_2_0_0_wf

class Facts : Prop extends Facts₀ where

variable [Facts]
-- ==== Proof.CaseValues.lean ====
/-
  What each of the body's three control cases leaves behind, as values, at any float instance.

  The body keeps two [16, 1408] accumulators between grid points: one for the gate projection and one for the up
  projection of the sixteen tokens of the current expert. At the first hidden tile of an expert it first clears both
  and then adds that tile's partial products, so it leaves  0 + (tile product);  at every later tile it leaves
  (previous contents) + (tile product).  At the last hidden tile it also writes the expert's output block: the
  SwiGLU of the two finished accumulators multiplied by the expert's down projection.

  Each statement below says that what the case leaves in a buffer is one named pure term (the store's value) of the
  blocks the point was handed and, where the case reads them, of the accumulators' previous contents.
-/
import proofs.«120115_j70300024701273_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.CaseValues

open Cert.KernelIdeal Cert.KernelIdeal.Gen

variable {F : FTy → Type} [FloatOps F]

/-- Every access of the body starts at the origin of its buffer. -/
theorem zero2 : (![0, 0] : Fin 2 → Nat) = fun _ => 0 := funext fun a => by fin_cases a <;> rfl
theorem zero3 : (![0, 0, 0] : Fin 3 → Nat) = fun _ => 0 := funext fun a => by fin_cases a <;> rfl

/-- First tile of an expert, gate accumulator: cleared, then this tile's products added to the cleared contents. -/
theorem first_gate (c : Dev nD) (i : grid0.Coords) (arg2 : Memref sig .tc .vmem S1x16x256 .f32) (harg2 : arg2.IsWhole) (arg3 : Memref sig .tc .vmem S1x256x1408 .f32) (harg3 : arg3.IsWhole) (arg4 : Memref sig .tc .vmem S1x256x1408 .f32) (harg4 : arg4.IsWhole) (arg5 : Memref sig .tc .vmem S1x1408x2048 .f32) (harg5 : arg5.IsWhole) (arg6 : Memref sig .tc .vmem S1x16x2048 .f32) (harg6 : arg6.IsWhole) (arg7 : Memref sig .tc .vmem S16x1408 .f32) (harg7 : arg7.IsWhole) (arg8 : Memref sig .tc .vmem S16x1408 .f32) (harg8 : arg8.IsWhole) (hc0 : cond0_0 i) (hc1 : ¬cond0_1 i) (x0 : Vec F S1x16x256 .f32) (x1 : Vec F S1x256x1408 .f32) (x2 : Vec F S1x256x1408 .f32) (x3 : Vec F S1x1408x2048 .f32) :
    sout0_A_0 c i arg2 harg2 arg3 harg3 arg4 harg4 arg5 harg5 arg6 harg6 arg7 harg7 arg8 harg8 hc0 hc1 x0 x1 x2 x3 = k0_pay4 x0 x1 (k0_pay1 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S16x1408) zero2]
  simp only [View.readAt_eq_ld, harg2.read_unread, harg3.read_unread, harg4.read_unread, harg5.read_unread, harg7.read_unread, harg8.read_unread, View.readCov_unit_zero (S := S16x1408) _ zero2, View.ld_unit_zero (S := S16x1408) zero2, View.ld_unit_zero (S := S1x16x256) zero3, View.ld_unit_zero (S := S1x256x1408) zero3, View.ld_unit_zero (S := S1x1408x2048) zero3]

/-- First tile of an expert, up accumulator: the same with the up projection's tile. -/
theorem first_up (c : Dev nD) (i : grid0.Coords) (arg2 : Memref sig .tc .vmem S1x16x256 .f32) (harg2 : arg2.IsWhole) (arg3 : Memref sig .tc .vmem S1x256x1408 .f32) (harg3 : arg3.IsWhole) (arg4 : Memref sig .tc .vmem S1x256x1408 .f32) (harg4 : arg4.IsWhole) (arg5 : Memref sig .tc .vmem S1x1408x2048 .f32) (harg5 : arg5.IsWhole) (arg6 : Memref sig .tc .vmem S1x16x2048 .f32) (harg6 : arg6.IsWhole) (arg7 : Memref sig .tc .vmem S16x1408 .f32) (harg7 : arg7.IsWhole) (arg8 : Memref sig .tc .vmem S16x1408 .f32) (harg8 : arg8.IsWhole) (hc0 : cond0_0 i) (hc1 : ¬cond0_1 i) (x0 : Vec F S1x16x256 .f32) (x1 : Vec F S1x256x1408 .f32) (x2 : Vec F S1x256x1408 .f32) (x3 : Vec F S1x1408x2048 .f32) :
    sout0_A_1 c i arg2 harg2 arg3 harg3 arg4 harg4 arg5 harg5 arg6 harg6 arg7 harg7 arg8 harg8 hc0 hc1 x0 x1 x2 x3 = k0_pay5 x0 x2 (k0_pay2 (F := F)) := by
  unfold sout0_A_1
  rw [View.read_writes_eq_canon _ _ _ (scover0_A_1 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S16x1408) zero2]
  simp only [View.readAt_eq_ld, harg2.read_unread, harg3.read_unread, harg4.read_unread, harg5.read_unread, harg7.read_unread, harg8.read_unread, View.readCov_unit_zero (S := S16x1408) _ zero2, View.ld_unit_zero (S := S16x1408) zero2, View.ld_unit_zero (S := S1x16x256) zero3, View.ld_unit_zero (S := S1x256x1408) zero3, View.ld_unit_zero (S := S1x1408x2048) zero3]

/-- A middle tile, gate accumulator: this tile's products added to what the point before left. -/
theorem middle_gate (c : Dev nD) (i : grid0.Coords) (arg2 : Memref sig .tc .vmem S1x16x256 .f32) (harg2 : arg2.IsWhole) (arg3 : Memref sig .tc .vmem S1x256x1408 .f32) (harg3 : arg3.IsWhole) (arg4 : Memref sig .tc .vmem S1x256x1408 .f32) (harg4 : arg4.IsWhole) (arg5 : Memref sig .tc .vmem S1x1408x2048 .f32) (harg5 : arg5.IsWhole) (arg6 : Memref sig .tc .vmem S1x16x2048 .f32) (harg6 : arg6.IsWhole) (arg7 : Memref sig .tc .vmem S16x1408 .f32) (harg7 : arg7.IsWhole) (arg8 : Memref sig .tc .vmem S16x1408 .f32) (harg8 : arg8.IsWhole) (hc0 : ¬cond0_0 i) (hc1 : ¬cond0_1 i) (x0 : Vec F S1x16x256 .f32) (x1 : Vec F S1x256x1408 .f32) (x2 : Vec F S1x256x1408 .f32) (x3 : Vec F S1x1408x2048 .f32) (xs0 : Vec F S16x1408 .f32) (xs1 : Vec F S16x1408 .f32) :
    sout0_B_0 c i arg2 harg2 arg3 harg3 arg4 harg4 arg5 harg5 arg6 harg6 arg7 harg7 arg8 harg8 hc0 hc1 x0 x1 x2 x3 xs0 xs1 = k0_pay4 x0 x1 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero zero2]
  simp only [View.readAt_eq_ld, harg2.read_unread, harg3.read_unread, harg4.read_unread, harg5.read_unread, harg7.read_unread, harg8.read_unread, View.readCov_unit_zero (S := S16x1408) _ zero2, View.ld_unit_zero (S := S16x1408) zero2, View.ld_unit_zero (S := S1x16x256) zero3, View.ld_unit_zero (S := S1x256x1408) zero3, View.ld_unit_zero (S := S1x1408x2048) zero3]

/-- A middle tile, up accumulator. -/
theorem middle_up (c : Dev nD) (i : grid0.Coords) (arg2 : Memref sig .tc .vmem S1x16x256 .f32) (harg2 : arg2.IsWhole) (arg3 : Memref sig .tc .vmem S1x256x1408 .f32) (harg3 : arg3.IsWhole) (arg4 : Memref sig .tc .vmem S1x256x1408 .f32) (harg4 : arg4.IsWhole) (arg5 : Memref sig .tc .vmem S1x1408x2048 .f32) (harg5 : arg5.IsWhole) (arg6 : Memref sig .tc .vmem S1x16x2048 .f32) (harg6 : arg6.IsWhole) (arg7 : Memref sig .tc .vmem S16x1408 .f32) (harg7 : arg7.IsWhole) (arg8 : Memref sig .tc .vmem S16x1408 .f32) (harg8 : arg8.IsWhole) (hc0 : ¬cond0_0 i) (hc1 : ¬cond0_1 i) (x0 : Vec F S1x16x256 .f32) (x1 : Vec F S1x256x1408 .f32) (x2 : Vec F S1x256x1408 .f32) (x3 : Vec F S1x1408x2048 .f32) (xs0 : Vec F S16x1408 .f32) (xs1 : Vec F S16x1408 .f32) :
    sout0_B_1 c i arg2 harg2 arg3 harg3 arg4 harg4 arg5 harg5 arg6 harg6 arg7 harg7 arg8 harg8 hc0 hc1 x0 x1 x2 x3 xs0 xs1 = k0_pay5 x0 x2 xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero zero2]
  simp only [View.readAt_eq_ld, harg2.read_unread, harg3.read_unread, harg4.read_unread, harg5.read_unread, harg7.read_unread, harg8.read_unread, View.readCov_unit_zero (S := S16x1408) _ zero2, View.ld_unit_zero (S := S16x1408) zero2, View.ld_unit_zero (S := S1x16x256) zero3, View.ld_unit_zero (S := S1x256x1408) zero3, View.ld_unit_zero (S := S1x1408x2048) zero3]

/-- The last tile, gate accumulator: as at a middle tile. -/
theorem last_gate (c : Dev nD) (i : grid0.Coords) (arg2 : Memref sig .tc .vmem S1x16x256 .f32) (harg2 : arg2.IsWhole) (arg3 : Memref sig .tc .vmem S1x256x1408 .f32) (harg3 : arg3.IsWhole) (arg4 : Memref sig .tc .vmem S1x256x1408 .f32) (harg4 : arg4.IsWhole) (arg5 : Memref sig .tc .vmem S1x1408x2048 .f32) (harg5 : arg5.IsWhole) (arg6 : Memref sig .tc .vmem S1x16x2048 .f32) (harg6 : arg6.IsWhole) (arg7 : Memref sig .tc .vmem S16x1408 .f32) (harg7 : arg7.IsWhole) (arg8 : Memref sig .tc .vmem S16x1408 .f32) (harg8 : arg8.IsWhole) (hc0 : ¬cond0_0 i) (hc1 : cond0_1 i) (x0 : Vec F S1x16x256 .f32) (x1 : Vec F S1x256x1408 .f32) (x2 : Vec F S1x256x1408 .f32) (x3 : Vec F S1x1408x2048 .f32) (xs0 : Vec F S16x1408 .f32) (xs1 : Vec F S16x1408 .f32) :
    sout0_C_0 c i arg2 harg2 arg3 harg3 arg4 harg4 arg5 harg5 arg6 harg6 arg7 harg7 arg8 harg8 hc0 hc1 x0 x1 x2 x3 xs0 xs1 = k0_pay4 x0 x1 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero zero2]
  simp only [View.readAt_eq_ld, harg2.read_unread, harg3.read_unread, harg4.read_unread, harg5.read_unread, harg7.read_unread, harg8.read_unread, View.readCov_unit_zero (S := S16x1408) _ zero2, View.ld_unit_zero (S := S16x1408) zero2, View.ld_unit_zero (S := S1x16x256) zero3, View.ld_unit_zero (S := S1x256x1408) zero3, View.ld_unit_zero (S := S1x1408x2048) zero3]

/-- The last tile, up accumulator. -/
theorem last_up (c : Dev nD) (i : grid0.Coords) (arg2 : Memref sig .tc .vmem S1x16x256 .f32) (harg2 : arg2.IsWhole) (arg3 : Memref sig .tc .vmem S1x256x1408 .f32) (harg3 : arg3.IsWhole) (arg4 : Memref sig .tc .vmem S1x256x1408 .f32) (harg4 : arg4.IsWhole) (arg5 : Memref sig .tc .vmem S1x1408x2048 .f32) (harg5 : arg5.IsWhole) (arg6 : Memref sig .tc .vmem S1x16x2048 .f32) (harg6 : arg6.IsWhole) (arg7 : Memref sig .tc .vmem S16x1408 .f32) (harg7 : arg7.IsWhole) (arg8 : Memref sig .tc .vmem S16x1408 .f32) (harg8 : arg8.IsWhole) (hc0 : ¬cond0_0 i) (hc1 : cond0_1 i) (x0 : Vec F S1x16x256 .f32) (x1 : Vec F S1x256x1408 .f32) (x2 : Vec F S1x256x1408 .f32) (x3 : Vec F S1x1408x2048 .f32) (xs0 : Vec F S16x1408 .f32) (xs1 : Vec F S16x1408 .f32) :
    sout0_C_1 c i arg2 harg2 arg3 harg3 arg4 harg4 arg5 harg5 arg6 harg6 arg7 harg7 arg8 harg8 hc0 hc1 x0 x1 x2 x3 xs0 xs1 = k0_pay5 x0 x2 xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero zero2]
  simp only [View.readAt_eq_ld, harg2.read_unread, harg3.read_unread, harg4.read_unread, harg5.read_unread, harg7.read_unread, harg8.read_unread, View.readCov_unit_zero (S := S16x1408) _ zero2, View.ld_unit_zero (S := S16x1408) zero2, View.ld_unit_zero (S := S1x16x256) zero3, View.ld_unit_zero (S := S1x256x1408) zero3, View.ld_unit_zero (S := S1x1408x2048) zero3]

/-- The last tile, output block: the finishing product of the two accumulators as this very point completed them
    (the body reads both back after its own stores) with the expert's down projection. -/
theorem last_output (c : Dev nD) (i : grid0.Coords) (arg2 : Memref sig .tc .vmem S1x16x256 .f32) (harg2 : arg2.IsWhole) (arg3 : Memref sig .tc .vmem S1x256x1408 .f32) (harg3 : arg3.IsWhole) (arg4 : Memref sig .tc .vmem S1x256x1408 .f32) (harg4 : arg4.IsWhole) (arg5 : Memref sig .tc .vmem S1x1408x2048 .f32) (harg5 : arg5.IsWhole) (arg6 : Memref sig .tc .vmem S1x16x2048 .f32) (harg6 : arg6.IsWhole) (arg7 : Memref sig .tc .vmem S16x1408 .f32) (harg7 : arg7.IsWhole) (arg8 : Memref sig .tc .vmem S16x1408 .f32) (harg8 : arg8.IsWhole) (hc0 : ¬cond0_0 i) (hc1 : cond0_1 i) (x0 : Vec F S1x16x256 .f32) (x1 : Vec F S1x256x1408 .f32) (x2 : Vec F S1x256x1408 .f32) (x3 : Vec F S1x1408x2048 .f32) (xs0 : Vec F S16x1408 .f32) (xs1 : Vec F S16x1408 .f32) :
    out0_C_4 c i arg2 harg2 arg3 harg3 arg4 harg4 arg5 harg5 arg6 harg6 arg7 harg7 arg8 harg8 hc0 hc1 x0 x1 x2 x3 xs0 xs1 = k0_pay6 (k0_pay4 x0 x1 xs0) (k0_pay5 x0 x2 xs1) x3 := by
  unfold out0_C_4
  rw [View.read_writes_eq_canon _ _ _ (cover0_C_4 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero zero3]
  simp only [View.readAt_eq_ld, harg2.read_unread, harg3.read_unread, harg4.read_unread, harg5.read_unread, harg7.read_unread, harg8.read_unread, View.readCov_unit_zero (S := S16x1408) _ zero2, View.ld_unit_zero (S := S16x1408) zero2, View.ld_unit_zero (S := S1x16x256) zero3, View.ld_unit_zero (S := S1x256x1408) zero3, View.ld_unit_zero (S := S1x1408x2048) zero3]

end Cert.KernelIdeal.CaseValues

end
-- ==== Proof.LibMatmulPlain.lean ====
/-
  A general lemma. The plain matrix product of an [M, K] array by a [K, N] array (the left operand contracted on its
  second axis, the right on its first, no batch axes), accumulated into the zero array and read at the exact
  instance, is at entry (p, q) the finite sum over the contraction coordinate k of left (p, k) · right (k, q).
  It holds for all sizes and both operands' formats.
-/
import Idealize.ShloMosaic.Lib.ValueIdx
import Idealize.ShloMosaic.PureOps.Ideal.Laws

namespace Idealize.ShloMosaic.MatmulPlain

open Idealize.ShloMosaic Idealize.ShloMosaic.ValueIdx

variable {M K N : ℕ}

/-- The left operand's row coordinate is the result's row coordinate. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the result's column coordinate. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (p, q) of the plain product into a zero accumulator is ∑ k, left (p, k) · right (k, q). -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    matmul (DotDims.plain M K N) prec l r (constant ⟨2, ![M, N]⟩ .f32 0x00000000#32) (ix2 p q)
      = ∑ k : Fin K, l (ix2 p k) * r (ix2 k q) := by
  show FloatOps.matmul (DotDims.plain M K N) prec l r (constant ⟨2, ![M, N]⟩ .f32 0x00000000#32) (ix2 p q) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

end Idealize.ShloMosaic.MatmulPlain
-- ==== Proof.PayloadEntries.lean ====
/-
  The body's arithmetic, read one entry at a time over the extended reals.

  Changing a number's float format does nothing to an extended real, so a tile product is the plain sum over the 256
  coordinates of the tile; adding it to the accumulator is addition; and the finishing step is the sum over the 1408
  intermediate coordinates of the gated product times the down projection. The blocks arrive with a leading axis of
  length one, which the body drops before multiplying and puts back before storing.
-/
import proofs.«120115_j70300024701273_1_alg».proof.Proof.Gen.KernelIdeal.Skeleton
import proofs.«120115_j70300024701273_1_alg».proof.Proof.LibMatmulPlain
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.PayloadEntries

open Cert.KernelIdeal Cert.KernelIdeal.Gen

/-- The two products of the body are plain matrix products: no batch axis, the left operand contracted on its second
    axis and the right on its first. -/
theorem tileProduct_plain : dot_S16x256_S256x1408_S16x1408_1_0_0_1_n_n = DotDims.plain 16 256 1408 := rfl
theorem downProduct_plain : dot_S16x1408_S1408x2048_S16x2048_1_0_0_1_n_n = DotDims.plain 16 1408 2048 := rfl

/-- The value the body clears the gate accumulator to is zero everywhere. -/
theorem cleared_gate (i : S16x1408.Idx) : k0_pay1 (F := Ideal) i = 0 := by
  unfold k0_pay1
  refine (congrFun (shapeCast_self _ _) _).trans ?_
  exact Ideal.ofBits_zero_f32

/-- And so is the value it clears the up accumulator to. -/
theorem cleared_up (i : S16x1408.Idx) : k0_pay2 (F := Ideal) i = 0 := by
  unfold k0_pay2
  refine (congrFun (shapeCast_self _ _) _).trans ?_
  exact Ideal.ofBits_zero_f32

/-- One accumulation step of the gate projection at entry (p, f): the accumulator's entry plus the tile's sum of
    products of the token block's row p with the weight block's column f. -/
theorem gate_step (x0 : Vec Ideal S1x16x256 .f32) (x1 : Vec Ideal S1x256x1408 .f32) (acc : Vec Ideal S16x1408 .f32)
    (p : Fin 16) (f : Fin 1408) :
    k0_pay4 (F := Ideal) x0 x1 acc (ix2 p f)
      = acc (ix2 p f) + ∑ kk : Fin 256, x0 (ix3 (0 : Fin 1) p kk) * x1 (ix3 (0 : Fin 1) kk f) := by
  unfold k0_pay4 k0_pay3
  refine (congrFun (shapeCast_self _ _) _).trans ?_
  refine (addf_apply _ _ _).trans ?_
  refine congrArg (acc (ix2 p f) + ·) ?_
  rw [tileProduct_plain]
  refine (Idealize.ShloMosaic.MatmulPlain.matmul_zero_apply none _ _ p f).trans ?_
  refine Finset.sum_congr rfl fun kk _ => ?_
  exact congrArg₂ (· * ·) (shapeCast_1ab_ab_apply x0 _ p kk) (shapeCast_1ab_ab_apply x1 _ kk f)

/-- The same step for the up projection. -/
theorem up_step (x0 : Vec Ideal S1x16x256 .f32) (x2 : Vec Ideal S1x256x1408 .f32) (acc : Vec Ideal S16x1408 .f32)
    (p : Fin 16) (f : Fin 1408) :
    k0_pay5 (F := Ideal) x0 x2 acc (ix2 p f)
      = acc (ix2 p f) + ∑ kk : Fin 256, x0 (ix3 (0 : Fin 1) p kk) * x2 (ix3 (0 : Fin 1) kk f) := by
  unfold k0_pay5 k0_pay3
  refine (congrFun (shapeCast_self _ _) _).trans ?_
  refine (addf_apply _ _ _).trans ?_
  refine congrArg (acc (ix2 p f) + ·) ?_
  rw [tileProduct_plain]
  refine (Idealize.ShloMosaic.MatmulPlain.matmul_zero_apply none _ _ p f).trans ?_
  refine Finset.sum_congr rfl fun kk _ => ?_
  exact congrArg₂ (· * ·) (shapeCast_1ab_ab_apply x0 _ p kk) (shapeCast_1ab_ab_apply x2 _ kk f)

/-- The finishing step at entry (p, h) of the output block: the sum over the intermediate coordinate f of the gated
    product of the two finished accumulators at (p, f) times the down projection's entry (f, h). -/
theorem finish (a b : Vec Ideal S16x1408 .f32) (x3 : Vec Ideal S1x1408x2048 .f32) (u : Fin 1) (p : Fin 16) (h : Fin 2048) :
    k0_pay6 (F := Ideal) a b x3 (ix3 u p h)
      = ∑ f : Fin 1408, ((a (ix2 p f) * Ideal.logistic (a (ix2 p f))) * b (ix2 p f)) * x3 (ix3 (0 : Fin 1) f h) := by
  unfold k0_pay6
  refine (shapeCast_ab_1ab_apply _ _ u p h).trans ?_
  rw [downProduct_plain]
  refine (Idealize.ShloMosaic.MatmulPlain.matmul_zero_apply none _ _ p h).trans ?_
  refine Finset.sum_congr rfl fun f _ => ?_
  exact congrArg₂ (· * ·) rfl (shapeCast_1ab_ab_apply x3 _ f h)

end Cert.KernelIdeal.PayloadEntries

end
-- ==== Proof.LibSumTiles.lean ====
/-
  A general lemma. A finite sum over the T·K indices of a tiled axis is the sum, over the T tiles, of each tile's sum
  over its K indices, index K·s + kk being index kk of tile s. It holds in any commutative additive monoid, so in
  particular over the extended reals, where no finiteness is needed to regroup a sum.
-/
import Mathlib.Algebra.BigOperators.Fin
import Mathlib.Logic.Equiv.Fin.Basic

namespace Cert.SumTiles

/-- Index `kk` of tile `s`. -/
def at_ {T K : ℕ} (s : Fin T) (kk : Fin K) : Fin (T * K) :=
  ⟨K * s.val + kk.val, by
    have hs := s.isLt; have hk := kk.isLt
    calc K * s.val + kk.val < K * s.val + K := Nat.add_lt_add_left hk _
      _ = K * (s.val + 1) := by rw [Nat.mul_succ]
      _ ≤ K * T := Nat.mul_le_mul_left _ hs
      _ = T * K := Nat.mul_comm _ _⟩

theorem at_val {T K : ℕ} (s : Fin T) (kk : Fin K) : (at_ s kk).val = K * s.val + kk.val := rfl

/-- A sum over a tiled axis, tile by tile. -/
theorem sum_tiles {M : Type*} [AddCommMonoid M] (T K : ℕ) (g : Fin (T * K) → M) :
    ∑ k : Fin (T * K), g k = ∑ s : Fin T, ∑ kk : Fin K, g (at_ s kk) := by
  rw [← Equiv.sum_comp finProdFinEquiv g, Fintype.sum_prod_type]
  refine Finset.sum_congr rfl fun s _ => Finset.sum_congr rfl fun kk _ => congrArg g (Fin.ext ?_)
  show kk.val + K * s.val = K * s.val + kk.val
  exact Nat.add_comm _ _

end Cert.SumTiles
-- ==== Proof.ExpertMlp.lean ====
/-
  The function both programs compute, and the one law that joins them.

  There are 64 experts, each owning 16 consecutive rows of the [1024, 2048] token array: row 16e + p is token p of
  expert e. For a weight array w of shape [64, 2048, 1408] the projection of that token is

      proj x w e p f  =  sum over k < 2048 of  x[16e + p, k] * w[e, k, f].

  The result row is the gated product of the gate and up projections pushed through the down projection:

      out e p h  =  sum over f < 1408 of  ((a * logistic a) * b) * down[e, f, h],   a = proj x gate, b = proj x up,

  where logistic a = 1 / (1 + exp (-a)) on the extended reals.

  One program takes each projection in a single contraction over all 2048 hidden coordinates; the other splits the
  hidden axis into eight tiles of 256 and adds the tiles' partial products one after the other, starting from zero.
  A finite sum over the extended reals may be regrouped freely (they form a commutative additive monoid), so the two
  agree on every input; nothing here needs the inputs to be finite.
-/
import Idealize.ShloMosaic.Lib.ValueIdx
import Idealize.ShloMosaic.PureOps.Ideal.Laws
import proofs.«120115_j70300024701273_1_alg».proof.Proof.LibSumTiles

noncomputable section

namespace Cert.ExpertMlp

open Idealize.ShloMosaic Idealize.ShloMosaic.ValueIdx

/-- Token `p` of expert `e` is row `16 e + p`. -/
def tok (e : Fin 64) (p : Fin 16) : Fin 1024 :=
  ⟨16 * e.val + p.val, by have := e.isLt; have := p.isLt; omega⟩

/-- Coordinate `kk` of hidden tile `s` is hidden coordinate `256 s + kk`. -/
def hid (s : Fin 8) (kk : Fin 256) : Fin 2048 :=
  ⟨256 * s.val + kk.val, by have := s.isLt; have := kk.isLt; omega⟩

variable (x : FVec Ideal ⟨2, ![1024, 2048]⟩ .f32) (w : FVec Ideal ⟨3, ![64, 2048, 1408]⟩ .f32)

/-- One projection of one token, all hidden coordinates at once. -/
def proj (e : Fin 64) (p : Fin 16) (f : Fin 1408) : EReal :=
  ∑ k : Fin 2048, x (ix2 (tok e p) k) * w (ix3 e k f)

/-- The share of one hidden tile in that projection. -/
def tile (e : Fin 64) (s : Fin 8) (p : Fin 16) (f : Fin 1408) : EReal :=
  ∑ kk : Fin 256, x (ix2 (tok e p) (hid s kk)) * w (ix3 e (hid s kk) f)

/-- The projection is the sum of its eight tiles' shares. -/
theorem proj_eq_tiles (e : Fin 64) (p : Fin 16) (f : Fin 1408) :
    proj x w e p f = ∑ s : Fin 8, tile x w e s p f :=
  Cert.SumTiles.sum_tiles 8 256 (fun k : Fin (8 * 256) => x (ix2 (tok e p) k) * w (ix3 e k f))

/-- Tile number `n` counted by a natural number; nothing beyond the eighth. -/
def tileAt (e : Fin 64) (n : ℕ) (p : Fin 16) (f : Fin 1408) : EReal :=
  if h : n < 8 then tile x w e ⟨n, h⟩ p f else 0

/-- What the accumulator holds once the first `n` tiles have been added, in order, to zero. -/
def upTo (e : Fin 64) (n : ℕ) (p : Fin 16) (f : Fin 1408) : EReal :=
  ∑ s ∈ Finset.range n, tileAt x w e s p f

theorem upTo_zero (e : Fin 64) (p : Fin 16) (f : Fin 1408) : upTo x w e 0 p f = 0 :=
  Finset.sum_range_zero _

theorem upTo_succ (e : Fin 64) (n : ℕ) (p : Fin 16) (f : Fin 1408) :
    upTo x w e (n + 1) p f = upTo x w e n p f + tileAt x w e n p f :=
  Finset.sum_range_succ _ _

/-- After all eight tiles the accumulator holds the whole projection. -/
theorem upTo_eight (e : Fin 64) (p : Fin 16) (f : Fin 1408) : upTo x w e 8 p f = proj x w e p f := by
  rw [proj_eq_tiles]
  unfold upTo
  rw [← Fin.sum_univ_eq_sum_range (fun s => tileAt x w e s p f) 8]
  exact Finset.sum_congr rfl fun s _ => dif_pos s.isLt

/-- The gate: `(a * logistic a) * b`. -/
def glu (a b : EReal) : EReal := (a * Ideal.logistic a) * b

/-- The logistic function is literally `1 / (1 + exp (-a))` on the extended reals. -/
theorem logistic_spelt (a : EReal) : Ideal.div 1 (1 + Ideal.exp (-a)) = Ideal.logistic a := rfl

variable (g u : FVec Ideal ⟨3, ![64, 2048, 1408]⟩ .f32) (d : FVec Ideal ⟨3, ![64, 1408, 2048]⟩ .f32)

/-- Entry `h` of the output row of token `p` of expert `e`. -/
def out (e : Fin 64) (p : Fin 16) (h : Fin 2048) : EReal :=
  ∑ f : Fin 1408, glu (proj x g e p f) (proj x u e p f) * d (ix3 e f h)

/-- The expert that owns row `r`, and the row's place among that expert's tokens. -/
def ownerOf (r : Fin 1024) : Fin 64 := ⟨r.val / 16, by have := r.isLt; omega⟩
def placeOf (r : Fin 1024) : Fin 16 := ⟨r.val % 16, by omega⟩

/-- The whole result: row `r` is the output row of its token. -/
def result : FVec Ideal ⟨2, ![1024, 2048]⟩ .f32 :=
  fun i => out x g u d (ownerOf (i 0)) (placeOf (i 0)) (i 1)

end Cert.ExpertMlp

end
-- ==== Proof.Blocks.lean ====
/-
  The blocks a grid point is handed, read one entry at a time off the argument arrays.

  The grid has 64 * 8 points; point number t works on expert t / 8 and on hidden tile t % 8 of that expert. At that
  point the token window holds the sixteen tokens of the expert restricted to the tile's 256 hidden coordinates, the
  gate and up windows hold the tile's 256 rows of the expert's two weight matrices, and the down window holds the
  expert's whole down-projection matrix. The token array reaches the kernel regrouped from [1024, 2048] into
  [64, 16, 2048]; the regrouping keeps row-major positions, so entry (e, p, k) of the regrouped array is entry
  (16 e + p, k) of the original.
-/
import proofs.«120115_j70300024701273_1_alg».proof.Proof.Gen.KernelIdeal.Frame
import proofs.«120115_j70300024701273_1_alg».proof.Proof.ExpertMlp
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx

namespace Cert.KernelIdeal.Blocks

open Cert.KernelIdeal Cert.KernelIdeal.Gen Cert.ExpertMlp

variable {F : FTy → Type} [FloatOps F]
variable (m : (ℓ : Loc nD τ sig) → Buf (Elt F) ℓ)

theorem points : cfg0.N = 512 := N_0

/-- The expert a grid point works on, and the hidden tile it is at. -/
def expertOf (t : Fin cfg0.N) : Fin 64 := ⟨t.val / 8, by have := t.isLt; have := points; omega⟩
def tileOf (t : Fin cfg0.N) : Fin 8 := ⟨t.val % 8, by omega⟩

/-- Where each window's block sits at point `t`, decided once over the grid. -/
theorem tokenWindow : ∀ t : Fin cfg0.N, win0_0.index t (0 : Fin 3) = t.val / 8 ∧ win0_0.index t (1 : Fin 3) = 0 ∧ win0_0.index t (2 : Fin 3) = t.val % 8 :=
  (by decide +kernel : ∀ t : Fin grid0.N, win0_0.index t (0 : Fin 3) = t.val / 8 ∧ win0_0.index t (1 : Fin 3) = 0 ∧ win0_0.index t (2 : Fin 3) = t.val % 8)
theorem gateWindow : ∀ t : Fin cfg0.N, win0_1.index t (0 : Fin 3) = t.val / 8 ∧ win0_1.index t (1 : Fin 3) = t.val % 8 ∧ win0_1.index t (2 : Fin 3) = 0 :=
  (by decide +kernel : ∀ t : Fin grid0.N, win0_1.index t (0 : Fin 3) = t.val / 8 ∧ win0_1.index t (1 : Fin 3) = t.val % 8 ∧ win0_1.index t (2 : Fin 3) = 0)
theorem upWindow : ∀ t : Fin cfg0.N, win0_2.index t (0 : Fin 3) = t.val / 8 ∧ win0_2.index t (1 : Fin 3) = t.val % 8 ∧ win0_2.index t (2 : Fin 3) = 0 :=
  (by decide +kernel : ∀ t : Fin grid0.N, win0_2.index t (0 : Fin 3) = t.val / 8 ∧ win0_2.index t (1 : Fin 3) = t.val % 8 ∧ win0_2.index t (2 : Fin 3) = 0)
theorem downWindow : ∀ t : Fin cfg0.N, win0_3.index t (0 : Fin 3) = t.val / 8 ∧ win0_3.index t (1 : Fin 3) = 0 ∧ win0_3.index t (2 : Fin 3) = 0 :=
  (by decide +kernel : ∀ t : Fin grid0.N, win0_3.index t (0 : Fin 3) = t.val / 8 ∧ win0_3.index t (1 : Fin 3) = 0 ∧ win0_3.index t (2 : Fin 3) = 0)
theorem outWindow : ∀ t : Fin cfg0.N, win0_4.index t (0 : Fin 3) = t.val / 8 ∧ win0_4.index t (1 : Fin 3) = 0 ∧ win0_4.index t (2 : Fin 3) = 0 :=
  (by decide +kernel : ∀ t : Fin grid0.N, win0_4.index t (0 : Fin 3) = t.val / 8 ∧ win0_4.index t (1 : Fin 3) = 0 ∧ win0_4.index t (2 : Fin 3) = 0)

/-- The token array as the kernel's region finds it: regrouped into [64, 16, 2048]. -/
theorem tokens_regrouped (c : Dev nD) :
    (V m c main_v0 : S64x16x2048.Idx → Elt F .f32)
      = shapeCast S64x16x2048 (m ((c : Thread nD τ).loc main_arg0)) shapeCasts_S1024x2048_S64x16x2048 := by
  show StableHlo.after hostOps0 (fun b => m (c, b)) (Proc.devRef .tc main_v0) = _
  after_results
  rfl

/-- Entry (p, kk) of the token block at point `t`: token p of the point's expert at coordinate kk of its tile. -/
theorem token_block (c : Dev nD) (t : Fin cfg0.N) (p : Fin 16) (kk : Fin 256) :
    (iblk m c 0 t : Vec F S1x16x256 .f32) (ix3 (0 : Fin 1) p kk)
      = m ((c : Thread nD τ).loc main_arg0) (ix2 (tok (expertOf t) p) (hid (tileOf t) kk)) := by
  unfold iblk
  rw [View.read_apply]
  show V m c main_v0 _ = _
  rw [tokens_regrouped]
  refine shapeCast_apply _ _ _ (ix2 (tok (expertOf t) p) (hid (tileOf t) kk)) ?_
  obtain ⟨e0, e1, e2⟩ := tokenWindow t
  rw [Shape.rowMajor_val_two, Shape.rowMajor_val_three]
  show (16 * (t.val / 8) + p.val) * 2048 + (256 * (t.val % 8) + kk.val)
    = ((win0_0.index t (0 : Fin 3) * 1 + 1 * 0) * 16 + (win0_0.index t (1 : Fin 3) * 16 + 1 * p.val)) * 2048
      + (win0_0.index t (2 : Fin 3) * 256 + 1 * kk.val)
  rw [e0, e1, e2]
  omega

/-- Entry (kk, f) of the gate block at point `t`: row kk of the tile, column f, of the expert's gate matrix. -/
theorem gate_block (c : Dev nD) (t : Fin cfg0.N) (kk : Fin 256) (f : Fin 1408) :
    (iblk m c 1 t : Vec F S1x256x1408 .f32) (ix3 (0 : Fin 1) kk f)
      = m ((c : Thread nD τ).loc main_arg1) (ix3 (expertOf t) (hid (tileOf t) kk) f) := by
  unfold iblk
  rw [View.read_apply]
  show V m c main_arg1 _ = _
  rw [V_main_arg1]
  obtain ⟨e0, e1, e2⟩ := gateWindow t
  congr 1
  funext a
  apply Fin.ext
  match a with
  | ⟨0, _⟩ => show win0_1.index t (0 : Fin 3) * 1 + 1 * 0 = t.val / 8; rw [e0]; omega
  | ⟨1, _⟩ => show win0_1.index t (1 : Fin 3) * 256 + 1 * kk.val = 256 * (t.val % 8) + kk.val; rw [e1]; omega
  | ⟨2, _⟩ => show win0_1.index t (2 : Fin 3) * 1408 + 1 * f.val = f.val; rw [e2]; omega

/-- The same entry of the up block. -/
theorem up_block (c : Dev nD) (t : Fin cfg0.N) (kk : Fin 256) (f : Fin 1408) :
    (iblk m c 2 t : Vec F S1x256x1408 .f32) (ix3 (0 : Fin 1) kk f)
      = m ((c : Thread nD τ).loc main_arg2) (ix3 (expertOf t) (hid (tileOf t) kk) f) := by
  unfold iblk
  rw [View.read_apply]
  show V m c main_arg2 _ = _
  rw [V_main_arg2]
  obtain ⟨e0, e1, e2⟩ := upWindow t
  congr 1
  funext a
  apply Fin.ext
  match a with
  | ⟨0, _⟩ => show win0_2.index t (0 : Fin 3) * 1 + 1 * 0 = t.val / 8; rw [e0]; omega
  | ⟨1, _⟩ => show win0_2.index t (1 : Fin 3) * 256 + 1 * kk.val = 256 * (t.val % 8) + kk.val; rw [e1]; omega
  | ⟨2, _⟩ => show win0_2.index t (2 : Fin 3) * 1408 + 1 * f.val = f.val; rw [e2]; omega

/-- Entry (f, h) of the down block at point `t`: the same entry of the expert's down matrix. -/
theorem down_block (c : Dev nD) (t : Fin cfg0.N) (f : Fin 1408) (h : Fin 2048) :
    (iblk m c 3 t : Vec F S1x1408x2048 .f32) (ix3 (0 : Fin 1) f h)
      = m ((c : Thread nD τ).loc main_arg3) (ix3 (expertOf t) f h) := by
  unfold iblk
  rw [View.read_apply]
  show V m c main_arg3 _ = _
  rw [V_main_arg3]
  obtain ⟨e0, e1, e2⟩ := downWindow t
  congr 1
  funext a
  apply Fin.ext
  match a with
  | ⟨0, _⟩ => show win0_3.index t (0 : Fin 3) * 1 + 1 * 0 = t.val / 8; rw [e0]; omega
  | ⟨1, _⟩ => show win0_3.index t (1 : Fin 3) * 1408 + 1 * f.val = f.val; rw [e1]; omega
  | ⟨2, _⟩ => show win0_3.index t (2 : Fin 3) * 2048 + 1 * h.val = h.val; rw [e2]; omega

end Cert.KernelIdeal.Blocks

end
-- ==== Proof.RunningSums.lean ====
/-
  What the two accumulators hold after every grid point, and what the last tile of an expert writes out.

  Point t works on tile t % 8 of expert t / 8. Whatever the control case, each accumulator ends the point holding
  this tile's partial products added to what the point started from: zero at an expert's first tile, the previous
  point's contents otherwise. By induction on the point the gate accumulator therefore holds, after point t, the sum
  of the first t % 8 + 1 tiles' shares of the gate projection for expert t / 8, and the up accumulator the same for
  the up projection. At an expert's last tile that is the whole projection, and the block written out is the gated
  product of the two projections contracted with the expert's down matrix: the specification's output rows.
-/
import proofs.«120115_j70300024701273_1_alg».proof.Proof.Gen.KernelIdeal.Frame
import proofs.«120115_j70300024701273_1_alg».proof.Proof.CaseValues
import proofs.«120115_j70300024701273_1_alg».proof.Proof.PayloadEntries
import proofs.«120115_j70300024701273_1_alg».proof.Proof.Blocks
import proofs.«120115_j70300024701273_1_alg».proof.Proof.ExpertMlp

noncomputable section

open Idealize.ShloMosaic Idealize.ShloMosaic.TcCoe Idealize.SL.Sem Idealize.ShloMosaic.ValueIdx

namespace Cert.KernelIdeal.RunningSums

open Cert.KernelIdeal Cert.KernelIdeal.Gen Cert.ExpertMlp
open Cert.KernelIdeal.CaseValues Cert.KernelIdeal.PayloadEntries Cert.KernelIdeal.Blocks

variable (m : (ℓ : Loc nD τ sig) → Buf (Elt Ideal) ℓ)

/-- The four argument arrays, at their literal types. -/
abbrev tokens (c : Dev nD) : FVec Ideal ⟨2, ![1024, 2048]⟩ .f32 := m ((c : Thread nD τ).loc main_arg0)
abbrev gateW (c : Dev nD) : FVec Ideal ⟨3, ![64, 2048, 1408]⟩ .f32 := m ((c : Thread nD τ).loc main_arg1)
abbrev upW (c : Dev nD) : FVec Ideal ⟨3, ![64, 2048, 1408]⟩ .f32 := m ((c : Thread nD τ).loc main_arg2)
abbrev downW (c : Dev nD) : FVec Ideal ⟨3, ![64, 1408, 2048]⟩ .f32 := m ((c : Thread nD τ).loc main_arg3)

/-- What the gate accumulator holds when point `t` begins to add: zero at a first tile, else what the point before left. -/
def gateStart (c : Dev nD) (t : Fin cfg0.N) : Vec Ideal S16x1408 .f32 :=
  if t.val % 8 = 0 then k0_pay1 (F := Ideal) else (outsAt0 m c (t.val - 1) (Nat.lt_of_le_of_lt (Nat.sub_le _ _) t.isLt)).2.1
def upStart (c : Dev nD) (t : Fin cfg0.N) : Vec Ideal S16x1408 .f32 :=
  if t.val % 8 = 0 then k0_pay2 (F := Ideal) else (outsAt0 m c (t.val - 1) (Nat.lt_of_le_of_lt (Nat.sub_le _ _) t.isLt)).2.2

/-- In every control case the gate accumulator ends the point at its start plus this tile's products. -/
theorem gate_after (c : Dev nD) (t : Fin cfg0.N) :
    (outsAt0 m c t.val t.isLt).2.1 = k0_pay4 (F := Ideal) (iblk m c 0 t) (iblk m c 1 t) (gateStart m c t) := by
  by_cases h0 : t.val % 8 = 0
  · have h1 : ¬t.val % 8 = 7 := by omega
    rw [outsAt0_A m c t h0 h1]; dsimp only
    rw [gateStart, if_pos h0]
    exact first_gate (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)
  · by_cases h1 : t.val % 8 = 7
    · rw [outsAt0_C m c t h0 h1]; dsimp only
      rw [gateStart, if_neg h0]
      exact last_gate (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2
    · rw [outsAt0_B m c t h0 h1]; dsimp only
      rw [gateStart, if_neg h0]
      exact middle_gate (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2

/-- And the up accumulator likewise. -/
theorem up_after (c : Dev nD) (t : Fin cfg0.N) :
    (outsAt0 m c t.val t.isLt).2.2 = k0_pay5 (F := Ideal) (iblk m c 0 t) (iblk m c 2 t) (upStart m c t) := by
  by_cases h0 : t.val % 8 = 0
  · have h1 : ¬t.val % 8 = 7 := by omega
    rw [outsAt0_A m c t h0 h1]; dsimp only
    rw [upStart, if_pos h0]
    exact first_up (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)
  · by_cases h1 : t.val % 8 = 7
    · rw [outsAt0_C m c t h0 h1]; dsimp only
      rw [upStart, if_neg h0]
      exact last_up (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2
    · rw [outsAt0_B m c t h0 h1]; dsimp only
      rw [upStart, if_neg h0]
      exact middle_up (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2

/-- At an expert's last tile the block written out is the finishing product of the two accumulators as this point
    leaves them with the expert's down block. -/
theorem output_after (c : Dev nD) (t : Fin cfg0.N) (h1 : t.val % 8 = 7) :
    (outsAt0 m c t.val t.isLt).1
      = k0_pay6 (F := Ideal) (outsAt0 m c t.val t.isLt).2.1 (outsAt0 m c t.val t.isLt).2.2 (iblk m c 3 t) := by
  have h0 : ¬t.val % 8 = 0 := by omega
  rw [outsAt0_C m c t h0 h1]; dsimp only
  exact (last_output (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2).trans
    (congrArg₂ (fun a b => k0_pay6 (F := Ideal) a b (iblk m c 3 t))
      (last_gate (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2).symm
      (last_up (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2).symm)

/-- One addition to the gate accumulator at entry (p, f): the tile's share of the gate projection. -/
theorem gate_add (c : Dev nD) (t : Fin cfg0.N) (acc : Vec Ideal S16x1408 .f32) (p : Fin 16) (f : Fin 1408) :
    k0_pay4 (F := Ideal) (iblk m c 0 t) (iblk m c 1 t) acc (ix2 p f)
      = acc (ix2 p f) + tile (tokens m c) (gateW m c) (expertOf t) (tileOf t) p f := by
  refine (gate_step (iblk m c 0 t) (iblk m c 1 t) acc p f).trans ?_
  refine congrArg (acc (ix2 p f) + ·) ?_
  unfold tile
  refine Finset.sum_congr rfl fun kk _ => ?_
  exact congrArg₂ (· * ·) (token_block m c t p kk) (gate_block m c t kk f)

/-- One addition to the up accumulator. -/
theorem up_add (c : Dev nD) (t : Fin cfg0.N) (acc : Vec Ideal S16x1408 .f32) (p : Fin 16) (f : Fin 1408) :
    k0_pay5 (F := Ideal) (iblk m c 0 t) (iblk m c 2 t) acc (ix2 p f)
      = acc (ix2 p f) + tile (tokens m c) (upW m c) (expertOf t) (tileOf t) p f := by
  refine (up_step (iblk m c 0 t) (iblk m c 2 t) acc p f).trans ?_
  refine congrArg (acc (ix2 p f) + ·) ?_
  unfold tile
  refine Finset.sum_congr rfl fun kk _ => ?_
  exact congrArg₂ (· * ·) (token_block m c t p kk) (up_block m c t kk f)

/-- The step of the running sum at point `t`, for either weight array. -/
theorem upTo_step (w : FVec Ideal ⟨3, ![64, 2048, 1408]⟩ .f32) (c : Dev nD) (t : Fin cfg0.N) (p : Fin 16) (f : Fin 1408) :
    upTo (tokens m c) w (expertOf t) (t.val % 8 + 1) p f
      = upTo (tokens m c) w (expertOf t) (t.val % 8) p f + tile (tokens m c) w (expertOf t) (tileOf t) p f :=
  (upTo_succ _ _ _ _ _ _).trans (congrArg (upTo (tokens m c) w (expertOf t) (t.val % 8) p f + ·)
    (dif_pos (Nat.mod_lt t.val (by norm_num))))

/-- THE INVARIANT: after point n the accumulators hold the first n % 8 + 1 tiles' shares for expert n / 8. -/
theorem sums (c : Dev nD) : ∀ (n : ℕ) (hn : n < cfg0.N) (p : Fin 16) (f : Fin 1408),
    (outsAt0 m c n hn).2.1 (ix2 p f) = upTo (tokens m c) (gateW m c) (expertOf ⟨n, hn⟩) (n % 8 + 1) p f
    ∧ (outsAt0 m c n hn).2.2 (ix2 p f) = upTo (tokens m c) (upW m c) (expertOf ⟨n, hn⟩) (n % 8 + 1) p f
  | 0, hn, p, f => by
    have e1 := congrFun (gate_after m c ⟨0, hn⟩) (ix2 p f)
    have e2 := congrFun (up_after m c ⟨0, hn⟩) (ix2 p f)
    refine ⟨e1.trans ?_, e2.trans ?_⟩
    · refine (gate_add m c ⟨0, hn⟩ _ p f).trans ?_
      rw [upTo_step m (gateW m c) c ⟨0, hn⟩ p f]
      refine congrArg (· + _) ?_
      rw [gateStart, if_pos (Nat.zero_mod 8), cleared_gate]
      exact (upTo_zero _ _ _ _ _).symm
    · refine (up_add m c ⟨0, hn⟩ _ p f).trans ?_
      rw [upTo_step m (upW m c) c ⟨0, hn⟩ p f]
      refine congrArg (· + _) ?_
      rw [upStart, if_pos (Nat.zero_mod 8), cleared_up]
      exact (upTo_zero _ _ _ _ _).symm
  | n + 1, hn, p, f => by
    have ih := sums c n (Nat.lt_of_succ_lt hn) p f
    have e1 := congrFun (gate_after m c ⟨n + 1, hn⟩) (ix2 p f)
    have e2 := congrFun (up_after m c ⟨n + 1, hn⟩) (ix2 p f)
    refine ⟨e1.trans ?_, e2.trans ?_⟩
    · refine (gate_add m c ⟨n + 1, hn⟩ _ p f).trans ?_
      rw [upTo_step m (gateW m c) c ⟨n + 1, hn⟩ p f]
      refine congrArg (· + _) ?_
      by_cases h0 : (n + 1) % 8 = 0
      · rw [gateStart, if_pos h0, cleared_gate]
        show (0 : EReal) = upTo _ _ _ ((n + 1) % 8) p f
        rw [h0]; exact (upTo_zero _ _ _ _ _).symm
      · rw [gateStart, if_neg h0]
        have he : expertOf ⟨n, Nat.lt_of_succ_lt hn⟩ = expertOf ⟨n + 1, hn⟩ := Fin.ext (by show n / 8 = (n + 1) / 8; omega)
        have hk : n % 8 + 1 = (n + 1) % 8 := by omega
        have ih1 := ih.1
        rw [he, hk] at ih1
        exact ih1
    · refine (up_add m c ⟨n + 1, hn⟩ _ p f).trans ?_
      rw [upTo_step m (upW m c) c ⟨n + 1, hn⟩ p f]
      refine congrArg (· + _) ?_
      by_cases h0 : (n + 1) % 8 = 0
      · rw [upStart, if_pos h0, cleared_up]
        show (0 : EReal) = upTo _ _ _ ((n + 1) % 8) p f
        rw [h0]; exact (upTo_zero _ _ _ _ _).symm
      · rw [upStart, if_neg h0]
        have he : expertOf ⟨n, Nat.lt_of_succ_lt hn⟩ = expertOf ⟨n + 1, hn⟩ := Fin.ext (by show n / 8 = (n + 1) / 8; omega)
        have hk : n % 8 + 1 = (n + 1) % 8 := by omega
        have ih2 := ih.2
        rw [he, hk] at ih2
        exact ih2

/-- What an expert's last tile writes out, entry (p, h): the specification's output entry of token p of that expert. -/
theorem written_entry (c : Dev nD) (t : Fin cfg0.N) (h1 : t.val % 8 = 7) (u : Fin 1) (p : Fin 16) (h : Fin 2048) :
    (outsAt0 m c t.val t.isLt).1 (ix3 u p h)
      = out (tokens m c) (gateW m c) (upW m c) (downW m c) (expertOf t) p h := by
  rw [output_after m c t h1]
  refine (finish _ _ (iblk m c 3 t) u p h).trans ?_
  unfold out glu
  refine Finset.sum_congr rfl fun f _ => ?_
  have hs := sums m c t.val t.isLt p f
  have h8 : t.val % 8 + 1 = 8 := by omega
  rw [hs.1, hs.2, h8, upTo_eight, upTo_eight, down_block m c t f h]

end Cert.KernelIdeal.RunningSums

end
-- ==== Proof.KernelValue.lean ====
/-
  What the kernel program leaves in its result, as one array.

  Only an expert's last tile writes its output block back, and that block is slab e of a [64, 16, 2048] array: the
  sixteen output rows of expert e. The 64 last-tile points cover every slab, so after the run the slab array holds,
  at (e, p, h), the specification's output entry of token p of expert e. The program then regroups the slabs into
  [1024, 2048] keeping row-major positions, so row r of the result is row r % 16 of slab r / 16: the specification.
-/
import proofs.«120115_j70300024701273_1_alg».proof.Proof.Gen.KernelIdeal.Frame
import proofs.«120115_j70300024701273_1_alg».proof.Proof.RunningSums
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.KernelValue

open Cert.KernelIdeal Cert.KernelIdeal.Gen Cert.ExpertMlp
open Cert.KernelIdeal.Blocks Cert.KernelIdeal.RunningSums

variable (m : (ℓ : Loc nD τ sig) → Buf (Elt Ideal) ℓ) (ρ : Dev nD → PrngReg)

/-- The slab array: entry (e, p, h) is the output entry h of token p of expert e. -/
def slabs (c : Dev nD) : S64x16x2048.Idx → Elt Ideal .f32 :=
  fun i => out (tokens m c) (gateW m c) (upW m c) (downW m c) (i 0) (i 1) (i 2)

/-- What a writing point writes back is its slab of the slab array. -/
theorem written_block (c : Dev nD) (t : Fin cfg0.N) (hf : (cfg0.win 4).flush t = true) :
    (dats m 0 c).flushed 4 t = ((cfg0.win 4).blk t).view.read (Elt Ideal) (slabs m c) := by
  have h7 : t.val % 8 = 7 := (flush0_4 t).mp hf
  show (cfg0.win 4).cut (grid0.coords t) ((dats m 0 c).after 4 t) = _
  rw [after0_4]
  obtain ⟨e0, e1, e2⟩ := outWindow t
  funext j
  have hj0 : (j 0).val < 1 := (j 0).isLt
  have hj1 : (j 1).val < 16 := (j 1).isLt
  have hj2 : (j 2).val < 2048 := (j 2).isLt
  show (outsAt0 m c t.val t.isLt).1 j = slabs m c (((cfg0.win 4).blk t).view.emb j)
  refine ((congrArg (outsAt0 m c t.val t.isLt).1 (eq_ix3 j)).trans (written_entry m c t h7 (j 0) (j 1) (j 2))).trans ?_
  unfold slabs
  have a0 : expertOf t = (((cfg0.win 4).blk t).view.emb j) 0 :=
    Fin.ext (by show t.val / 8 = win0_4.index t (0 : Fin 3) * 1 + 1 * (j 0).val; rw [e0]; omega)
  have a1 : j 1 = (((cfg0.win 4).blk t).view.emb j) 1 :=
    Fin.ext (by show (j 1).val = win0_4.index t (1 : Fin 3) * 16 + 1 * (j 1).val; rw [e1]; omega)
  have a2 : j 2 = (((cfg0.win 4).blk t).view.emb j) 2 :=
    Fin.ext (by show (j 2).val = win0_4.index t (2 : Fin 3) * 2048 + 1 * (j 2).val; rw [e2]; omega)
  rw [← a0, ← a1, ← a2]

/-- An index of the slab array lies in point `t`'s block iff each coordinate lies in the block's range on its axis. -/
theorem in_block (t : Fin cfg0.N) (i : S64x16x2048.Idx) :
    i ∈ ((cfg0.win 4).blk t).view.set
      ↔ ∀ a : Fin 3, win0_4.index t a * S1x16x2048.size a ≤ (i a).val ∧ (i a).val < win0_4.index t a * S1x16x2048.size a + S1x16x2048.size a := by
  show i ∈ ((View.whole main_v1).slice (win0_4.rect t)).set ↔ _
  rw [View.set_slice_whole, Rect.mem_set_unit]
  exact Iff.rfl

/-- Every slab is written by its expert's last tile. -/
theorem slabs_covered (i : S64x16x2048.Idx) :
    ∃ t : Fin cfg0.N, (cfg0.win 4).flush t = true ∧ i ∈ ((cfg0.win 4).blk t).view.set := by
  have hi0 : (i 0).val < 64 := (i 0).isLt
  have hi1 : (i 1).val < 16 := (i 1).isLt
  have hi2 : (i 2).val < 2048 := (i 2).isLt
  have hN := points
  let t : Fin cfg0.N := ⟨8 * (i 0).val + 7, by omega⟩
  have ht : t.val = 8 * (i 0).val + 7 := rfl
  obtain ⟨e0, e1, e2⟩ := outWindow t
  refine ⟨t, (flush0_4 t).mpr (by omega), ?_⟩
  rw [in_block]
  intro a
  match a with
  | ⟨0, _⟩ => show win0_4.index t (0 : Fin 3) * 1 ≤ (i 0).val ∧ (i 0).val < win0_4.index t (0 : Fin 3) * 1 + 1; rw [e0]; omega
  | ⟨1, _⟩ => show win0_4.index t (1 : Fin 3) * 16 ≤ (i 1).val ∧ (i 1).val < win0_4.index t (1 : Fin 3) * 16 + 16; rw [e1]; omega
  | ⟨2, _⟩ => show win0_4.index t (2 : Fin 3) * 2048 ≤ (i 2).val ∧ (i 2).val < win0_4.index t (2 : Fin 3) * 2048 + 2048; rw [e2]; omega

/-- So after the run the slab array holds the specification's output entries. -/
theorem slabs_final (c : Dev nD) : (dats m 0 c).arrAt 4 cfg0.N = slabs m c :=
  (dats m 0 c).arrAt_eq_of_cover 4 (slabs m c) (written_block m c) slabs_covered

/-- The regrouped result is the specification. -/
theorem regrouped_result (c : Dev nD) :
    Pipeline.afterTail₀ cfgs (dats m) 0 (V0 m) [hostOps1] c main_v2
      = result (tokens m c) (gateW m c) (upW m c) (downW m c) := by
  unfold Pipeline.afterTail₀
  show StableHlo.after hostOps1 _ (Proc.devRef .tc main_v2) = _
  after_results
  funext i
  have hw : Pipeline.withArrays (cfgs 0).spec c (V0 m c) (fun w => (dats m 0 c).arrAt w (cfgs 0).N) (Proc.devRef .tc main_v1)
      = slabs m c :=
    (Pipeline.withArrays_arr spec0 launch0.win.arr_inj c _ _ 4).trans (slabs_final m c)
  show shapeCast S1024x2048 (Pipeline.withArrays (cfgs 0).spec c (V0 m c) (fun w => (dats m 0 c).arrAt w (cfgs 0).N) (Proc.devRef .tc main_v1))
      shapeCasts_S64x16x2048_S1024x2048 i = _
  rw [hw]
  have h0 : (i 0).val < 1024 := (i 0).isLt
  have h1 : (i 1).val < 2048 := (i 1).isLt
  refine (shapeCast_apply (slabs m c) shapeCasts_S64x16x2048_S1024x2048 i (ix3 (ownerOf (i 0)) (placeOf (i 0)) (i 1)) ?_).trans rfl
  rw [Shape.rowMajor_val_three, Shape.rowMajor_val_two]
  show ((i 0).val / 16 * 16 + (i 0).val % 16) * 2048 + (i 1).val = (i 0).val * 2048 + (i 1).val
  omega

/-- The kernel program's run, read: every weakly fair execution ends with the result at the specification of the
    argument arrays, and the arguments as they were. -/
theorem run : θ_run defs (onTc (τ := τ) (main (F := Ideal))) ⟨m, fun _ => 0, ρ⟩ fun r => ∀ c : Dev nD,
      r.2.mem ((c.tc : Thread nD τ).loc main_v2) = result (tokens m c) (gateW m c) (upW m c) (downW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v2 (Pipeline.mem_restRefs_of main_v2 (by decide) (by decide))).trans (regrouped_result m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.KernelIdeal.KernelValue

end
-- ==== Proof.Reference.lean ====
/-
  The reference computes the specification.

  Its last stage regroups a [64, 16, 2048] array into [1024, 2048]; row r of the result is therefore row r % 16 of
  slab r / 16. That slab entry is a contraction over the 1408 intermediate coordinates of the gated product with the
  down matrix of the same expert, and the two gate operands are contractions over all 2048 hidden coordinates of the
  regrouped token array with the expert's gate and up matrices. The reference spells the logistic function as
  1 / (1 + exp (-a)) with the literal 1.0, which is the extended real 1.
-/
import proofs.«120115_j70300024701273_1_alg».proof.Proof.Gen.ReferenceIdeal.Read
import proofs.«120115_j70300024701273_1_alg».proof.Proof.ExpertMlp
import Idealize.ShloMosaic.Lib.ValueIdx
import Idealize.ShloMosaic.Lib.IdealHost
import Idealize.ShloMosaic.PureOps.Ideal.Laws

noncomputable section

namespace Cert.ReferenceIdeal.RefValue

open Idealize.ShloMosaic Idealize.ShloMosaic.ValueIdx
open Cert.ReferenceIdeal Cert.ReferenceIdeal.Read Cert.ExpertMlp

variable (x0 : FVec Ideal ⟨2, ![1024, 2048]⟩ .f32) (x1 x2 : FVec Ideal ⟨3, ![64, 2048, 1408]⟩ .f32)
  (x3 : FVec Ideal ⟨3, ![64, 1408, 2048]⟩ .f32)

/-- Entry (e, p, k) of the regrouped token array is entry (16 e + p, k) of the token array. -/
theorem regrouped_entry (e : Fin 64) (p : Fin 16) (k : Fin 2048) :
    idx_main_v0 (ix3 e p k) = ix2 (tok e p) k := by
  funext a
  apply Fin.ext
  have he := e.isLt; have hp := p.isLt; have hk := k.isLt
  match a with
  | ⟨0, _⟩ => show ((e.val * 16 + p.val) * 2048 + k.val) / 2048 = 16 * e.val + p.val; omega
  | ⟨1, _⟩ => show ((e.val * 16 + p.val) * 2048 + k.val) % 2048 = k.val; omega

/-- The reference's first contraction at (e, p, f) is the gate-side projection of token p of expert e. -/
theorem first_contraction (w : FVec Ideal ⟨3, ![64, 2048, 1408]⟩ .f32) (e : Fin 64) (p : Fin 16) (f : Fin 1408) :
    val_main_v1 (F := Ideal) x0 w (ix3 e p f) = proj x0 w e p f := by
  rw [val_main_v1_apply]
  unfold proj
  refine Finset.sum_congr rfl fun k _ => ?_
  rw [val_main_v0_apply]
  have hl : lidx_main_v1 (ix3 e p f) k = ix3 e p k :=
    funext fun a => Fin.ext (by match a with | ⟨0, _⟩ => rfl | ⟨1, _⟩ => rfl | ⟨2, _⟩ => rfl)
  have hr : ridx_main_v1 (ix3 e p f) k = ix3 e k f :=
    funext fun a => Fin.ext (by match a with | ⟨0, _⟩ => rfl | ⟨1, _⟩ => rfl | ⟨2, _⟩ => rfl)
  rw [hl, hr, regrouped_entry]

/-- The second contraction is the same function of the up matrix (it is the same operation on another operand). -/
theorem second_contraction (w : FVec Ideal ⟨3, ![64, 2048, 1408]⟩ .f32) (e : Fin 64) (p : Fin 16) (f : Fin 1408) :
    val_main_v2 (F := Ideal) x0 w (ix3 e p f) = proj x0 w e p f := by
  rw [val_main_v2_apply]
  unfold proj
  refine Finset.sum_congr rfl fun k _ => ?_
  rw [val_main_v0_apply]
  have hl : lidx_main_v2 (ix3 e p f) k = ix3 e p k :=
    funext fun a => Fin.ext (by match a with | ⟨0, _⟩ => rfl | ⟨1, _⟩ => rfl | ⟨2, _⟩ => rfl)
  have hr : ridx_main_v2 (ix3 e p f) k = ix3 e k f :=
    funext fun a => Fin.ext (by match a with | ⟨0, _⟩ => rfl | ⟨1, _⟩ => rfl | ⟨2, _⟩ => rfl)
  rw [hl, hr, regrouped_entry]

/-- The gated product the reference forms at (e, p, f). -/
theorem gated_entry (e : Fin 64) (p : Fin 16) (f : Fin 1408) :
    val_main_v4 (F := Ideal) x0 x1 x2 (ix3 e p f) = glu (proj x0 x1 e p f) (proj x0 x2 e p f) := by
  rw [val_main_v4_apply, val_main_v3_apply, val_main_call0_v5_apply, val_main_call0_v4_apply,
    val_main_call0_cst_0_apply, val_main_call0_v3_apply, val_main_call0_v2_apply, val_main_call0_cst_apply,
    val_main_call0_v1_apply, val_main_call0_v0_apply, first_contraction, second_contraction]
  simp only [Ideal.mulf_def, Ideal.hostDivf_def, Ideal.addf_def, Ideal.hostUnary_exp_def, Ideal.hostNegf_def,
    Ideal.negf_def, Ideal.ofBits_def, Ideal.ofBits_one_f32]
  rfl

/-- The reference's result is the specification, entry by entry. -/
theorem reference_is_spec :
    val_main_v6 (F := Ideal) x0 x1 x2 x3 = result x0 x1 x2 x3 := by
  funext i
  rw [val_main_v6_apply, val_main_v5_apply]
  unfold result out
  have h0 : (i 0).val < 1024 := (i 0).isLt
  have h1 : (i 1).val < 2048 := (i 1).isLt
  refine Finset.sum_congr rfl fun f _ => ?_
  have hl : lidx_main_v5 (idx_main_v6 i) f = ix3 (ownerOf (i 0)) (placeOf (i 0)) f :=
    funext fun a => Fin.ext (by
      match a with
      | ⟨0, _⟩ => show ((i 0).val * 2048 + (i 1).val) / 32768 = (i 0).val / 16; omega
      | ⟨1, _⟩ => show ((i 0).val * 2048 + (i 1).val) / 2048 % 16 = (i 0).val % 16; omega
      | ⟨2, _⟩ => rfl)
  have hr : ridx_main_v5 (idx_main_v6 i) f = ix3 (ownerOf (i 0)) f (i 1) :=
    funext fun a => Fin.ext (by
      match a with
      | ⟨0, _⟩ => show ((i 0).val * 2048 + (i 1).val) / 32768 = (i 0).val / 16; omega
      | ⟨1, _⟩ => rfl
      | ⟨2, _⟩ => show ((i 0).val * 2048 + (i 1).val) % 2048 = (i 1).val; omega)
  rw [hl, hr]
  exact congrArg (· * x3 (ix3 (ownerOf (i 0)) f (i 1))) (gated_entry x0 x1 x2 (ownerOf (i 0)) (placeOf (i 0)) f)

end Cert.ReferenceIdeal.RefValue

end
-- ==== Proof.lean ====
/-
  A grouped feed-forward layer over 64 experts, each owning 16 consecutive rows of a [1024, 2048] token array,
  against the same layer written as three batched contractions.

  For token p of expert e and a weight array w of shape [64, 2048, 1408] write
      proj w (e, p, f) = sum over k < 2048 of x[16 e + p, k] * w[e, k, f].
  Both programs return, at row 16 e + p and column h,
      sum over f < 1408 of ((a * logistic a) * b) * down[e, f, h],   a = proj gate (e, p, f), b = proj up (e, p, f),
  with logistic a = 1 / (1 + exp (-a)) on the extended reals.

  The reference takes each projection as one contraction over the 2048 hidden coordinates and spells the logistic
  function out as 1 / (1 + exp (-a)) with the literal 1.0. The kernel visits 64 * 8 grid points, point t working on
  hidden tile t % 8 of expert t / 8; it keeps the two projections of the expert's sixteen tokens in two accumulators
  that it clears at the expert's first tile and to which it adds each tile's 256 partial products, and at the
  expert's last tile it forms the gated product, contracts it with the expert's down matrix and writes the sixteen
  output rows. Its changes of float format do nothing to an extended real.

  So the two differ only in how each projection's 2048 terms are grouped: eight tiles added in order to zero against
  one sum. The extended reals are a commutative additive monoid, in which a finite sum may be regrouped freely, so the
  results agree on every input and the proof never uses that the inputs are finite.

  The modules: the specification and the regrouping law; what each control case of the body leaves behind; the
  body's arithmetic at an entry; the blocks a point is handed, read off the argument arrays; the accumulators after
  every point, by induction on the point; the kernel's result as one array; the reference's result as the same array.
  Both kernels' frames are the generated ones; the reference's frame is its generated run with the result dropped;
  the idealization rewrote nothing, so there is nothing to preserve.
-/
import proofs.«120115_j70300024701273_1_alg».proof.Defs
import proofs.«120115_j70300024701273_1_alg».proof.Proof.Gen.Kernel
import proofs.«120115_j70300024701273_1_alg».proof.Proof.Gen.Kernel.Skeleton
import proofs.«120115_j70300024701273_1_alg».proof.Proof.Gen.Kernel.Launch
import proofs.«120115_j70300024701273_1_alg».proof.Proof.Gen.Kernel.Points
import proofs.«120115_j70300024701273_1_alg».proof.Proof.Gen.Kernel.Frame
import proofs.«120115_j70300024701273_1_alg».proof.Proof.Gen.KernelIdeal
import proofs.«120115_j70300024701273_1_alg».proof.Proof.Gen.KernelIdeal.Skeleton
import proofs.«120115_j70300024701273_1_alg».proof.Proof.Gen.KernelIdeal.Launch
import proofs.«120115_j70300024701273_1_alg».proof.Proof.Gen.KernelIdeal.Points
import proofs.«120115_j70300024701273_1_alg».proof.Proof.Gen.KernelIdeal.Frame
import proofs.«120115_j70300024701273_1_alg».proof.Proof.Gen.ReferenceIdeal
import proofs.«120115_j70300024701273_1_alg».proof.Proof.Gen.ReferenceIdeal.Run
import proofs.«120115_j70300024701273_1_alg».proof.Proof.Gen.ReferenceIdeal.Read
import proofs.«120115_j70300024701273_1_alg».proof.Proof.Gen.Pre_finite_inputs
import proofs.«120115_j70300024701273_1_alg».proof.Proof.KernelValue
import proofs.«120115_j70300024701273_1_alg».proof.Proof.Reference
import Idealize.ShloMosaic.Adequacy
import Idealize.ShloMosaic.Init

noncomputable section

namespace Cert.Proof

open Idealize.ShloMosaic Idealize.SL.Sem

/-- The word-level kernel runs and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments alone: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten when the kernel was read over the extended reals. -/
theorem preserves : Cert.preserves_Kernel_KernelIdeal := trivial

/-- Over the extended reals, from memories that agree on the arguments, both programs end with the specification
    of those arguments in their result. -/
theorem algebraic : Cert.algebraic_KernelIdeal_ReferenceIdeal := by
  intro m ρ m' ρ' _ hagree
  refine ⟨fun c => Cert.ExpertMlp.result (Cert.KernelIdeal.RunningSums.tokens m c) (Cert.KernelIdeal.RunningSums.gateW m c)
      (Cert.KernelIdeal.RunningSums.upW m c) (Cert.KernelIdeal.RunningSums.downW m c),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1]
  exact (Cert.ReferenceIdeal.Read.val_main_v6_eq _ _ _ _).trans
    (Cert.ReferenceIdeal.RefValue.reference_is_spec _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
